-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x8 : Shape := ⟨3, ![512, 512, 8]⟩
abbrev S2x523264 : Shape := ⟨2, ![2, 523264]⟩
abbrev S262144 : Shape := ⟨1, ![262144]⟩
abbrev S5x128 : Shape := ⟨2, ![5, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S512x512x8 : S_.BroadcastsInDim S512x512x8 (![] : Fin 0 → Fin S512x512x8.rank)
  reducesTo_S512x512x8_S_d0_1_2 : S512x512x8.ReducesTo [0, 1, 2] S_
  h_S_ : 0 < S_.numel
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S512x512x8 .f32) (main_arg1 : IVec S2x523264 32) (main_arg2 : IVec S262144 32) (main_arg3 : FVec F S5x128 .f32) (main_arg4 : FVec F S128 .f32) (main_arg5 : FVec F S128x64 .f32) (main_arg6 : FVec F S64 .f32) : IVec S_ 1 :=
  let main_v0 : FVec F S512x512x8 .f32 := Host.absf main_arg0
  let main_cst : FVec F S_ .f32 := constant S_ .f32 0x7F800000#32
  let main_v1 : FVec F S512x512x8 .f32 := broadcastInDim S512x512x8 ![] bcast_S_S512x512x8 main_cst
  let main_v2 : IVec S512x512x8 1 := cmpf .olt main_v0 main_v1
  let main_c : IVec S_ 1 := constantI S_ 1 1#1
  let main_v3 : IVec S_ 1 := (fun x v => Host.reduce IntOp.andi x v reducesTo_S512x512x8_S_d0_1_2 h_S_) main_v2 main_c
  let main_v4 : FVec F S5x128 .f32 := Host.absf main_arg3
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S512x512x8 : Shape := ⟨3, ![512, 512, 8]⟩
abbrev S2x523264 : Shape := ⟨2, ![2, 523264]⟩
abbrev S262144 : Shape := ⟨1, ![262144]⟩
abbrev S5x128 : Shape := ⟨2, ![5, 128]⟩
abbrev S128 : Shape := ⟨1, ![128]⟩
abbrev S128x64 : Shape := ⟨2, ![128, 64]⟩
abbrev S64 : Shape := ⟨1, ![64]⟩
abbrev S512x512x5 : Shape := ⟨3, ![512, 512, 5]⟩
abbrev S262144x5 : Shape := ⟨2, ![262144, 5]⟩
abbrev S1x523264 : Shape := ⟨2, ![1, 523264]⟩
abbrev S523264 : Shape := ⟨1, ![523264]⟩
abbrev S785408 : Shape := ⟨1, ![785408]⟩
abbrev S_ : Shape := ⟨0, ![]⟩
abbrev S785408x1 : Shape := ⟨2, ![785408, 1]⟩
abbrev S262144x128 : Shape := ⟨2, ![262144, 128]⟩
abbrev S8192x5 : Shape := ⟨2, ![8192, 5]⟩
abbrev S8192x128 : Shape := ⟨2, ![8192, 128]⟩
abbrev S785408x128 : Shape := ⟨2, ![785408, 128]⟩
abbrev S1x128 : Shape := ⟨2, ![1, 128]⟩
abbrev S262144x64 : Shape := ⟨2, ![262144, 64]⟩
abbrev S8192x64 : Shape := ⟨2, ![8192, 64]⟩
abbrev S785408x64 : Shape := ⟨2, ![785408, 64]⟩
abbrev S1x64 : Shape := ⟨2, ![1, 64]⟩
abbrev S512x64 : Shape := ⟨2, ![512, 64]⟩
abbrev S262144x1 : Shape := ⟨2, ![262144, 1]⟩
abbrev S512 : Shape := ⟨1, ![512]⟩
abbrev S512x1 : Shape := ⟨2, ![512, 1]⟩

abbrev nBuf : Space → Nat
  | .hbm => 97
  | .vmem => 10
  | .smem => 0
  | _ => 0

abbrev bufTy : (tb : Table) → Fin (tcTables nBuf tb) → BufTy
  | .hbm, ⟨0, _⟩ => ⟨S512x512x8, .f32⟩
  | .hbm, ⟨1, _⟩ => ⟨S2x523264, .i32⟩
  | .hbm, ⟨2, _⟩ => ⟨S262144, .i32⟩
  | .hbm, ⟨3, _⟩ => ⟨S5x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S512x512x5, .f32⟩
  | .hbm, ⟨8, _⟩ => ⟨S262144x5, .f32⟩
  | .hbm, ⟨9, _⟩ => ⟨S262144, .i32⟩
  | .hbm, ⟨10, _⟩ => ⟨S1x523264, .i32⟩
  | .hbm, ⟨11, _⟩ => ⟨S523264, .i32⟩
  | .hbm, ⟨12, _⟩ => ⟨S785408, .i32⟩
  | .hbm, ⟨13, _⟩ => ⟨S1x523264, .i32⟩
  | .hbm, ⟨14, _⟩ => ⟨S523264, .i32⟩
  | .hbm, ⟨15, _⟩ => ⟨S785408, .i32⟩
  | .hbm, ⟨16, _⟩ => ⟨S_, .f32⟩
  | .hbm, ⟨17, _⟩ => ⟨S785408, .f32⟩
  | .hbm, ⟨18, _⟩ => ⟨S_, .f32⟩
  | .hbm, ⟨19, _⟩ => ⟨S262144, .f32⟩
  | .hbm, ⟨20, _⟩ => ⟨S785408x1, .i32⟩
  | .hbm, ⟨21, _⟩ => ⟨S262144, .f32⟩
  | .hbm, ⟨22, _⟩ => ⟨S262144, .f32⟩
  | .hbm, ⟨23, _⟩ => ⟨S_, .i32⟩
  | .hbm, ⟨24, _⟩ => ⟨S785408, .i32⟩
  | .hbm, ⟨25, _⟩ => ⟨S785408, .i1⟩
  | .hbm, ⟨26, _⟩ => ⟨S_, .i32⟩
  | .hbm, ⟨27, _⟩ => ⟨S785408, .i32⟩
  | .hbm, ⟨28, _⟩ => ⟨S785408, .i32⟩
  | .hbm, ⟨29, _⟩ => ⟨S785408, .i32⟩
  | .hbm, ⟨30, _⟩ => ⟨S785408x1, .i32⟩
  | .hbm, ⟨31, _⟩ => ⟨S785408, .f32⟩
  | .hbm, ⟨32, _⟩ => ⟨S_, .i32⟩
  | .hbm, ⟨33, _⟩ => ⟨S785408, .i32⟩
  | .hbm, ⟨34, _⟩ => ⟨S785408, .i1⟩
  | .hbm, ⟨35, _⟩ => ⟨S_, .i32⟩
  | .hbm, ⟨36, _⟩ => ⟨S785408, .i32⟩
  | .hbm, ⟨37, _⟩ => ⟨S785408, .i32⟩
  | .hbm, ⟨38, _⟩ => ⟨S785408, .i32⟩
  | .hbm, ⟨39, _⟩ => ⟨S785408x1, .i32⟩
  | .hbm, ⟨40, _⟩ => ⟨S785408, .f32⟩
  | .hbm, ⟨41, _⟩ => ⟨S785408, .f32⟩
  | .hbm, ⟨42, _⟩ => ⟨S785408x1, .f32⟩
  | .hbm, ⟨43, _⟩ => ⟨S262144x128, .f32⟩
  | .hbm, ⟨44, _⟩ => ⟨S_, .i32⟩
  | .hbm, ⟨45, _⟩ => ⟨S785408, .i32⟩
  | .hbm, ⟨46, _⟩ => ⟨S785408, .i1⟩
  | .hbm, ⟨47, _⟩ => ⟨S_, .i32⟩
  | .hbm, ⟨48, _⟩ => ⟨S785408, .i32⟩
  | .hbm, ⟨49, _⟩ => ⟨S785408, .i32⟩
  | .hbm, ⟨50, _⟩ => ⟨S785408, .i32⟩
  | .hbm, ⟨51, _⟩ => ⟨S785408x1, .i32⟩
  | .hbm, ⟨52, _⟩ => ⟨S785408x128, .f32⟩
  | .hbm, ⟨53, _⟩ => ⟨S785408x128, .f32⟩
  | .hbm, ⟨54, _⟩ => ⟨S785408x128, .f32⟩
  | .hbm, ⟨55, _⟩ => ⟨S_, .f32⟩
  | .hbm, ⟨56, _⟩ => ⟨S262144x128, .f32⟩
  | .hbm, ⟨57, _⟩ => ⟨S785408x1, .i32⟩
  | .hbm, ⟨58, _⟩ => ⟨S262144x128, .f32⟩
  | .hbm, ⟨59, _⟩ => ⟨S1x128, .f32⟩
  | .hbm, ⟨60, _⟩ => ⟨S262144x128, .f32⟩
  | .hbm, ⟨61, _⟩ => ⟨S262144x128, .f32⟩
  | .hbm, ⟨62, _⟩ => ⟨S_, .f32⟩
  | .hbm, ⟨63, _⟩ => ⟨S262144x128, .f32⟩
  | .hbm, ⟨64, _⟩ => ⟨S262144x128, .f32⟩
  | .hbm, ⟨65, _⟩ => ⟨S262144x64, .f32⟩
  | .hbm, ⟨66, _⟩ => ⟨S_, .i32⟩
  | .hbm, ⟨67, _⟩ => ⟨S785408, .i32⟩
  | .hbm, ⟨68, _⟩ => ⟨S785408, .i1⟩
  | .hbm, ⟨69, _⟩ => ⟨S_, .i32⟩
  | .hbm, ⟨70, _⟩ => ⟨S785408, .i32⟩
  | .hbm, ⟨71, _⟩ => ⟨S785408, .i32⟩
  | .hbm, ⟨72, _⟩ => ⟨S785408, .i32⟩
  | .hbm, ⟨73, _⟩ => ⟨S785408x1, .i32⟩
  | .hbm, ⟨74, _⟩ => ⟨S785408x64, .f32⟩
  | .hbm, ⟨75, _⟩ => ⟨S785408x64, .f32⟩
  | .hbm, ⟨76, _⟩ => ⟨S785408x64, .f32⟩
  | .hbm, ⟨77, _⟩ => ⟨S_, .f32⟩
  | .hbm, ⟨78, _⟩ => ⟨S262144x64, .f32⟩
  | .hbm, ⟨79, _⟩ => ⟨S785408x1, .i32⟩
  | .hbm, ⟨80, _⟩ => ⟨S262144x64, .f32⟩
  | .hbm, ⟨81, _⟩ => ⟨S1x64, .f32⟩
  | .hbm, ⟨82, _⟩ => ⟨S262144x64, .f32⟩
  | .hbm, ⟨83, _⟩ => ⟨S262144x64, .f32⟩
  | .hbm, ⟨84, _⟩ => ⟨S_, .f32⟩
  | .hbm, ⟨85, _⟩ => ⟨S512x64, .f32⟩
  | .hbm, ⟨86, _⟩ => ⟨S262144x1, .i32⟩
  | .hbm, ⟨87, _⟩ => ⟨S512x64, .f32⟩
  | .hbm, ⟨88, _⟩ => ⟨S_, .f32⟩
  | .hbm, ⟨89, _⟩ => ⟨S262144, .f32⟩
  | .hbm, ⟨90, _⟩ => ⟨S_, .f32⟩
  | .hbm, ⟨91, _⟩ => ⟨S512, .f32⟩
  | .hbm, ⟨92, _⟩ => ⟨S262144x1, .i32⟩
  | .hbm, ⟨93, _⟩ => ⟨S512, .f32⟩
  | .hbm, ⟨94, _⟩ => ⟨S512x1, .f32⟩
  | .hbm, ⟨95, _⟩ => ⟨S512x64, .f32⟩
  | .hbm, ⟨96, _⟩ => ⟨S512x64, .f32⟩
  | .local _ .vmem, ⟨0, _⟩ => ⟨S8192x5, .f32⟩
  | .local _ .vmem, ⟨1, _⟩ => ⟨S8192x5, .f32⟩
  | .local _ .vmem, ⟨2, _⟩ => ⟨S5x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S128x64, .f32⟩
  | .local _ .vmem, ⟨8, _⟩ => ⟨S8192x64, .f32⟩
  | .local _ .vmem, ⟨9, _⟩ => ⟨S8192x64, .f32⟩
  | _, _ => ⟨S512x512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_7 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S512x512x8_S512x512x5_0_0_0 : S512x512x8.Slices ![0, 0, 0] S512x512x5
  shapeCasts_S512x512x5_S262144x5 : S512x512x5.ShapeCasts S262144x5
  slices_S2x523264_S1x523264_0_0 : S2x523264.Slices ![0, 0] S1x523264
  shapeCasts_S1x523264_S523264 : S1x523264.ShapeCasts S523264
  concatenates_S523264_S262144_S785408_d0 : Shape.Concatenates [S523264, S262144] S785408 0
  slices_S2x523264_S1x523264_1_0 : S2x523264.Slices ![1, 0] S1x523264
  bcast_S_S785408 : S_.BroadcastsInDim S785408 (![] : Fin 0 → Fin S785408.rank)
  bcast_S_S262144 : S_.BroadcastsInDim S262144 (![] : Fin 0 → Fin S262144.rank)
  bcast_S785408_S785408x1_0 : S785408.BroadcastsInDim S785408x1 (![0] : Fin 1 → Fin S785408x1.rank)
  inb_S8192x5_S8192x5_0_0 : ∀ a, (![0, 0] : Fin 2 → Nat) a + S8192x5.size a ≤ S8192x5.size a
  h_S8192x5 : 0 < S8192x5.numel
  shapeCasts_S8192x5_S8192x5 : S8192x5.ShapeCasts S8192x5
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  inb_S8192x128_S8192x128_0_0 : ∀ a, (![0, 0] : Fin 2 → Nat) a + S8192x128.size a ≤ S8192x128.size a
  h_S8192x128 : 0 < S8192x128.numel
  bcast_S785408x1_S785408x128_0_1 : S785408x1.BroadcastsInDim S785408x128 (![0, 1] : Fin 2 → Fin S785408x128.rank)
  bcast_S_S262144x128 : S_.BroadcastsInDim S262144x128 (![] : Fin 0 → Fin S262144x128.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S8192x128_S8192x128 : S8192x128.ShapeCasts S8192x128
  inb_S128x64_S128x64_0_0 : ∀ a, (![0, 0] : Fin 2 → Nat) a + S128x64.size a ≤ S128x64.size a
  h_S128x64 : 0 < S128x64.numel
  inb_S8192x64_S8192x64_0_0 : ∀ a, (![0, 0] : Fin 2 → Nat) a + S8192x64.size a ≤ S8192x64.size a
  h_S8192x64 : 0 < S8192x64.numel
  bcast_S785408x1_S785408x64_0_1 : S785408x1.BroadcastsInDim S785408x64 (![0, 1] : Fin 2 → Fin S785408x64.rank)
  bcast_S_S262144x64 : S_.BroadcastsInDim S262144x64 (![] : Fin 0 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S512x64 : S_.BroadcastsInDim S512x64 (![] : Fin 0 → Fin S512x64.rank)
  bcast_S262144_S262144x1_0 : S262144.BroadcastsInDim S262144x1 (![0] : Fin 1 → Fin S262144x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S262144_S785408x1_S785408_n_0_0_1_wf : ScatterDims.WF S262144 S785408x1 S785408 [] [0] [0] 1
  gather_S262144_S785408x1_S785408_n_0_n_n_0_1_1_wf : GatherDims.WF S262144 S785408x1 S785408 [] [0] [] [0] [] 1 ![1]
  dot_S8192x5_S5x128_S8192x128_1_0_0_1_n_n_wf : DotDims.WF S8192x5 S5x128 S8192x128 [1] [0] [0] [1] [] []
  gather_S262144x128_S785408x1_S785408x128_1_0_n_n_0_1_1128_wf : GatherDims.WF S262144x128 S785408x1 S785408x128 [1] [0] [] [0] [] 1 ![1, 128]
  scatter_S262144x128_S785408x1_S785408x128_1_0_0_1_wf : ScatterDims.WF S262144x128 S785408x1 S785408x128 [1] [0] [0] 1
  dot_S8192x128_S128x64_S8192x64_1_0_0_1_n_n_wf : DotDims.WF S8192x128 S128x64 S8192x64 [1] [0] [0] [1] [] []
  gather_S262144x64_S785408x1_S785408x64_1_0_n_n_0_1_164_wf : GatherDims.WF S262144x64 S785408x1 S785408x64 [1] [0] [] [0] [] 1 ![1, 64]
  scatter_S262144x64_S785408x1_S785408x64_1_0_0_1_wf : ScatterDims.WF S262144x64 S785408x1 S785408x64 [1] [0] [0] 1
  scatter_S512x64_S262144x1_S262144x64_1_0_0_1_wf : ScatterDims.WF S512x64 S262144x1 S262144x64 [1] [0] [0] 1
  scatter_S512_S262144x1_S262144_n_0_0_1_wf : ScatterDims.WF S512 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x5.size a ≤ S262144x5.size a
  hwx0_0 : ∀ i : grid0.Coords, EltTy.bits .f32 = 32 ∨ (Rect.block (s := S262144x5) S8192x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S262144x128.size a
  hwx1_0 : ∀ i : grid1.Coords, EltTy.bits .f32 = 32 ∨ (Rect.block (s := S262144x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S262144x64.size a
  hwx1_2 : ∀ i : grid1.Coords, EltTy.bits .f32 = 32 ∨ (Rect.block (s := S262144x64) S8192x64.size (cc1_transform_2 i) (hinb1_2 i)).WholeWords (EltTy.packing .f32)

variable [Facts₀]

def scatter_S262144_S785408x1_S785408_n_0_0_1 : ScatterDims S262144 S785408x1 S785408 where
  updateWindowDims := []
  insertedWindowDims := [0]
  scatterDimsToOperandDims := [0]
  indexVectorDim := 1
  wf := scatter_S262144_S785408x1_S785408_n_0_0_1_wf
def gather_S262144_S785408x1_S785408_n_0_n_n_0_1_1 : GatherDims S262144 S785408x1 S785408 where
  offsetDims := []
  collapsedSliceDims := [0]
  operandBatchingDims := []
  startIndicesBatchingDims := []
  startIndexMap := [0]
  indexVectorDim := 1
  sliceSizes := ![1]
  wf := gather_S262144_S785408x1_S785408_n_0_n_n_0_1_1_wf
def dot_S8192x5_S5x128_S8192x128_1_0_0_1_n_n : DotDims S8192x5 S5x128 S8192x128 where
  lhsContracting := [1]
  rhsContracting := [0]
  lhsNonContracting := [0]
  rhsNonContracting := [1]
  lhsBatch := []
  rhsBatch := []
  wf := dot_S8192x5_S5x128_S8192x128_1_0_0_1_n_n_wf
def gather_S262144x128_S785408x1_S785408x128_1_0_n_n_0_1_1128 : GatherDims S262144x128 S785408x1 S785408x128 where
  offsetDims := [1]
  collapsedSliceDims := [0]
  operandBatchingDims := []
  startIndicesBatchingDims := []
  startIndexMap := [0]
  indexVectorDim := 1
  sliceSizes := ![1, 128]
  wf := gather_S262144x128_S785408x1_S785408x128_1_0_n_n_0_1_1128_wf
def scatter_S262144x128_S785408x1_S785408x128_1_0_0_1 : ScatterDims S262144x128 S785408x1 S785408x128 where
  updateWindowDims := [1]
  insertedWindowDims := [0]
  scatterDimsToOperandDims := [0]
  indexVectorDim := 1
  wf := scatter_S262144x128_S785408x1_S785408x128_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S262144x64_S785408x1_S785408x64_1_0_n_n_0_1_164 : GatherDims S262144x64 S785408x1 S785408x64 where
  offsetDims := [1]
  collapsedSliceDims := [0]
  operandBatchingDims := []
  startIndicesBatchingDims := []
  startIndexMap := [0]
  indexVectorDim := 1
  sliceSizes := ![1, 64]
  wf := gather_S262144x64_S785408x1_S785408x64_1_0_n_n_0_1_164_wf
def scatter_S262144x64_S785408x1_S785408x64_1_0_0_1 : ScatterDims S262144x64 S785408x1 S785408x64 where
  updateWindowDims := [1]
  insertedWindowDims := [0]
  scatterDimsToOperandDims := [0]
  indexVectorDim := 1
  wf := scatter_S262144x64_S785408x1_S785408x64_1_0_0_1_wf
def scatter_S512x64_S262144x1_S262144x64_1_0_0_1 : ScatterDims S512x64 S262144x1 S262144x64 where
  updateWindowDims := [1]
  insertedWindowDims := [0]
  scatterDimsToOperandDims := [0]
  indexVectorDim := 1
  wf := scatter_S512x64_S262144x1_S262144x64_1_0_0_1_wf
def scatter_S512_S262144x1_S262144_n_0_0_1 : ScatterDims S512 S262144x1 S262144 where
  updateWindowDims := []
  insertedWindowDims := [0]
  scatterDimsToOperandDims := [0]
  indexVectorDim := 1
  wf := scatter_S512_S262144x1_S262144_n_0_0_1_wf

abbrev win0_0 : Pipeline.Window sig grid0 :=
  Pipeline.Window.ofSpec (Memref.whole main_v1) S8192x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x512x8 : Shape := ⟨3, ![512, 512, 8]⟩
abbrev S2x523264 : Shape := ⟨2, ![2, 523264]⟩
abbrev S262144 : Shape := ⟨1, ![262144]⟩
abbrev S5x128 : Shape := ⟨2, ![5, 128]⟩
abbrev S128 : Shape := ⟨1, ![128]⟩
abbrev S128x64 : Shape := ⟨2, ![128, 64]⟩
abbrev S64 : Shape := ⟨1, ![64]⟩
abbrev S512x512x5 : Shape := ⟨3, ![512, 512, 5]⟩
abbrev S262144x5 : Shape := ⟨2, ![262144, 5]⟩
abbrev S262144x128 : Shape := ⟨2, ![262144, 128]⟩
abbrev S1x523264 : Shape := ⟨2, ![1, 523264]⟩
abbrev S523264 : Shape := ⟨1, ![523264]⟩
abbrev S785408 : Shape := ⟨1, ![785408]⟩
abbrev S_ : Shape := ⟨0, ![]⟩
abbrev S785408x1 : Shape := ⟨2, ![785408, 1]⟩
abbrev S785408x128 : Shape := ⟨2, ![785408, 128]⟩
abbrev S1x128 : Shape := ⟨2, ![1, 128]⟩
abbrev S262144x64 : Shape := ⟨2, ![262144, 64]⟩
abbrev S785408x64 : Shape := ⟨2, ![785408, 64]⟩
abbrev S1x64 : Shape := ⟨2, ![1, 64]⟩
abbrev S512x64 : Shape := ⟨2, ![512, 64]⟩
abbrev S262144x1 : Shape := ⟨2, ![262144, 1]⟩
abbrev S512 : Shape := ⟨1, ![512]⟩
abbrev S512x1 : Shape := ⟨2, ![512, 1]⟩

abbrev nBuf : Space → Nat
  | .hbm => 131
  | .vmem => 0
  | .smem => 0
  | _ => 0

abbrev hbmTy0_0 (i : Nat) : BufTy := match i % 128 with
  | 0 => ⟨S512x512x8, .f32⟩
  | 1 => ⟨S2x523264, .i32⟩
  | 2 => ⟨S262144, .i32⟩
  | 3 => ⟨S5x128, .f32⟩
  | 4 => ⟨S128, .f32⟩
  | 5 => ⟨S128x64, .f32⟩
  | 6 => ⟨S64, .f32⟩
  | 7 => ⟨S512x512x5, .f32⟩
  | 8 => ⟨S262144x5, .f32⟩
  | 9 => ⟨S262144x128, .f32⟩
  | 10 => ⟨S262144, .i32⟩
  | 11 => ⟨S1x523264, .i32⟩
  | 12 => ⟨S523264, .i32⟩
  | 13 => ⟨S785408, .i32⟩
  | 14 => ⟨S1x523264, .i32⟩
  | 15 => ⟨S523264, .i32⟩
  | 16 => ⟨S785408, .i32⟩
  | 17 => ⟨S_, .f32⟩
  | 18 => ⟨S785408, .f32⟩
  | 19 => ⟨S_, .f32⟩
  | 20 => ⟨S262144, .f32⟩
  | 21 => ⟨S785408x1, .i32⟩
  | 22 => ⟨S262144, .f32⟩
  | 23 => ⟨S262144, .f32⟩
  | 24 => ⟨S_, .i32⟩
  | 25 => ⟨S785408, .i32⟩
  | 26 => ⟨S785408, .i1⟩
  | 27 => ⟨S_, .i32⟩
  | 28 => ⟨S785408, .i32⟩
  | 29 => ⟨S785408, .i32⟩
  | 30 => ⟨S785408, .i32⟩
  | 31 => ⟨S785408x1, .i32⟩
  | 32 => ⟨S785408, .f32⟩
  | 33 => ⟨S_, .i32⟩
  | 34 => ⟨S785408, .i32⟩
  | 35 => ⟨S785408, .i1⟩
  | 36 => ⟨S_, .i32⟩
  | 37 => ⟨S785408, .i32⟩
  | 38 => ⟨S785408, .i32⟩
  | 39 => ⟨S785408, .i32⟩
  | 40 => ⟨S785408x1, .i32⟩
  | 41 => ⟨S785408, .f32⟩
  | 42 => ⟨S785408, .f32⟩
  | 43 => ⟨S_, .i32⟩
  | 44 => ⟨S785408, .i32⟩
  | 45 => ⟨S785408, .i1⟩
  | 46 => ⟨S_, .i32⟩
  | 47 => ⟨S785408, .i32⟩
  | 48 => ⟨S785408, .i32⟩
  | 49 => ⟨S785408, .i32⟩
  | 50 => ⟨S785408x1, .i32⟩
  | 51 => ⟨S785408x128, .f32⟩
  | 52 => ⟨S785408x1, .f32⟩
  | 53 => ⟨S785408x128, .f32⟩
  | 54 => ⟨S785408x128, .f32⟩
  | 55 => ⟨S_, .f32⟩
  | 56 => ⟨S262144x128, .f32⟩
  | 57 => ⟨S785408x1, .i32⟩
  | 58 => ⟨S262144x128, .f32⟩
  | 59 => ⟨S1x128, .f32⟩
  | 60 => ⟨S262144x128, .f32⟩
  | 61 => ⟨S262144x128, .f32⟩
  | 62 => ⟨S_, .f32⟩
  | 63 => ⟨S262144x128, .f32⟩
  | 64 => ⟨S262144x128, .f32⟩
  | 65 => ⟨S262144x64, .f32⟩
  | 66 => ⟨S262144, .i32⟩
  | 67 => ⟨S1x523264, .i32⟩
  | 68 => ⟨S523264, .i32⟩
  | 69 => ⟨S785408, .i32⟩
  | 70 => ⟨S1x523264, .i32⟩
  | 71 => ⟨S523264, .i32⟩
  | 72 => ⟨S785408, .i32⟩
  | 73 => ⟨S_, .f32⟩
  | 74 => ⟨S785408, .f32⟩
  | 75 => ⟨S_, .f32⟩
  | 76 => ⟨S262144, .f32⟩
  | 77 => ⟨S785408x1, .i32⟩
  | 78 => ⟨S262144, .f32⟩
  | 79 => ⟨S262144, .f32⟩
  | 80 => ⟨S_, .i32⟩
  | 81 => ⟨S785408, .i32⟩
  | 82 => ⟨S785408, .i1⟩
  | 83 => ⟨S_, .i32⟩
  | 84 => ⟨S785408, .i32⟩
  | 85 => ⟨S785408, .i32⟩
  | 86 => ⟨S785408, .i32⟩
  | 87 => ⟨S785408x1, .i32⟩
  | 88 => ⟨S785408, .f32⟩
  | 89 => ⟨S_, .i32⟩
  | 90 => ⟨S785408, .i32⟩
  | 91 => ⟨S785408, .i1⟩
  | 92 => ⟨S_, .i32⟩
  | 93 => ⟨S785408, .i32⟩
  | 94 => ⟨S785408, .i32⟩
  | 95 => ⟨S785408, .i32⟩
  | 96 => ⟨S785408x1, .i32⟩
  | 97 => ⟨S785408, .f32⟩
  | 98 => ⟨S785408, .f32⟩
  | 99 => ⟨S_, .i32⟩
  | 100 => ⟨S785408, .i32⟩
  | 101 => ⟨S785408, .i1⟩
  | 102 => ⟨S_, .i32⟩
  | 103 => ⟨S785408, .i32⟩
  | 104 => ⟨S785408, .i32⟩
  | 105 => ⟨S785408, .i32⟩
  | 106 => ⟨S785408x1, .i32⟩
  | 107 => ⟨S785408x64, .f32⟩
  | 108 => ⟨S785408x1, .f32⟩
  | 109 => ⟨S785408x64, .f32⟩
  | 110 => ⟨S785408x64, .f32⟩
  | 111 => ⟨S_, .f32⟩
  | 112 => ⟨S262144x64, .f32⟩
  | 113 => ⟨S785408x1, .i32⟩
  | 114 => ⟨S262144x64, .f32⟩
  | 115 => ⟨S1x64, .f32⟩
  | 116 => ⟨S262144x64, .f32⟩
  | 117 => ⟨S262144x64, .f32⟩
  | 118 => ⟨S_, .f32⟩
  | 119 => ⟨S512x64, .f32⟩
  | 120 => ⟨S262144x1, .i32⟩
  | 121 => ⟨S512x64, .f32⟩
  | 122 => ⟨S_, .f32⟩
  | 123 => ⟨S262144, .f32⟩
  | 124 => ⟨S_, .f32⟩
  | 125 => ⟨S512, .f32⟩
  | 126 => ⟨S262144x1, .i32⟩
  | 127 => ⟨S512, .f32⟩
  | _ => ⟨S512x512x8, .f32⟩

abbrev hbmTy0_1 (i : Nat) : BufTy := match i % 128 with
  | 0 => ⟨S512x1, .f32⟩
  | 1 => ⟨S512x64, .f32⟩
  | 2 => ⟨S512x64, .f32⟩
  | _ => ⟨S512x512x8, .f32⟩

abbrev hbmTy (i : Nat) : BufTy := match i / 128 with
  | 0 => hbmTy0_0 i
  | 1 => hbmTy0_1 i
  | _ => ⟨S512x512x8, .f32⟩

abbrev bufTy : (tb : Table) → Fin (tcTables nBuf tb) → BufTy
  | .hbm, ⟨i, _⟩ => hbmTy i
  | _, _ => ⟨S512x512x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_9 : Ref sig .tc := ⟨.hbm, 80, rfl⟩
abbrev main_v60 : Ref sig .tc := ⟨.hbm, 81, rfl⟩
abbrev main_v61 : Ref sig .tc := ⟨.hbm, 82, rfl⟩
abbrev main_c_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_11 : Ref sig .tc := ⟨.hbm, 89, rfl⟩
abbrev main_v67 : Ref sig .tc := ⟨.hbm, 90, rfl⟩
abbrev main_v68 : Ref sig .tc := ⟨.hbm, 91, rfl⟩
abbrev main_c_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_13 : Ref sig .tc := ⟨.hbm, 99, rfl⟩
abbrev main_v75 : Ref sig .tc := ⟨.hbm, 100, rfl⟩
abbrev main_v76 : Ref sig .tc := ⟨.hbm, 101, rfl⟩
abbrev main_c_14 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_15 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_16 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_17 : Ref sig .tc := ⟨.hbm, 122, rfl⟩
abbrev main_v94 : Ref sig .tc := ⟨.hbm, 123, rfl⟩
abbrev main_cst_18 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩

abbrev nD : Nat := 1
abbrev τ : Topo := Topo.v7x

variable {F : FTy → Type} [FloatOps F]

class Facts₀ : Prop where
  slices_S512x512x8_S512x512x5_0_0_0 : S512x512x8.Slices ![0, 0, 0] S512x512x5
  shapeCasts_S512x512x5_S262144x5 : S512x512x5.ShapeCasts S262144x5
  slices_S2x523264_S1x523264_0_0 : S2x523264.Slices ![0, 0] S1x523264
  shapeCasts_S1x523264_S523264 : S1x523264.ShapeCasts S523264
  concatenates_S523264_S262144_S785408_d0 : Shape.Concatenates [S523264, S262144] S785408 0
  slices_S2x523264_S1x523264_1_0 : S2x523264.Slices ![1, 0] S1x523264
  bcast_S_S785408 : S_.BroadcastsInDim S785408 (![] : Fin 0 → Fin S785408.rank)
  bcast_S_S262144 : S_.BroadcastsInDim S262144 (![] : Fin 0 → Fin S262144.rank)
  bcast_S785408_S785408x1_0 : S785408.BroadcastsInDim S785408x1 (![0] : Fin 1 → Fin S785408x1.rank)
  bcast_S785408x1_S785408x128_0_1 : S785408x1.BroadcastsInDim S785408x128 (![0, 1] : Fin 2 → Fin S785408x128.rank)
  bcast_S_S262144x128 : S_.BroadcastsInDim S262144x128 (![] : Fin 0 → Fin S262144x128.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S785408x1_S785408x64_0_1 : S785408x1.BroadcastsInDim S785408x64 (![0, 1] : Fin 2 → Fin S785408x64.rank)
  bcast_S_S262144x64 : S_.BroadcastsInDim S262144x64 (![] : Fin 0 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S512x64 : S_.BroadcastsInDim S512x64 (![] : Fin 0 → Fin S512x64.rank)
  bcast_S262144_S262144x1_0 : S262144.BroadcastsInDim S262144x1 (![0] : Fin 1 → Fin S262144x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  dot_S262144x5_S5x128_S262144x128_1_0_0_1_n_n_wf : DotDims.WF S262144x5 S5x128 S262144x128 [1] [0] [0] [1] [] []
  scatter_S262144_S785408x1_S785408_n_0_0_1_wf : ScatterDims.WF S262144 S785408x1 S785408 [] [0] [0] 1
  gather_S262144_S785408x1_S785408_n_0_n_n_0_1_1_wf : GatherDims.WF S262144 S785408x1 S785408 [] [0] [] [0] [] 1 ![1]
  gather_S262144x128_S785408x1_S785408x128_1_0_n_n_0_1_1128_wf : GatherDims.WF S262144x128 S785408x1 S785408x128 [1] [0] [] [0] [] 1 ![1, 128]
  scatter_S262144x128_S785408x1_S785408x128_1_0_0_1_wf : ScatterDims.WF S262144x128 S785408x1 S785408x128 [1] [0] [0] 1
  dot_S262144x128_S128x64_S262144x64_1_0_0_1_n_n_wf : DotDims.WF S262144x128 S128x64 S262144x64 [1] [0] [0] [1] [] []
  gather_S262144x64_S785408x1_S785408x64_1_0_n_n_0_1_164_wf : GatherDims.WF S262144x64 S785408x1 S785408x64 [1] [0] [] [0] [] 1 ![1, 64]
  scatter_S262144x64_S785408x1_S785408x64_1_0_0_1_wf : ScatterDims.WF S262144x64 S785408x1 S785408x64 [1] [0] [0] 1
  scatter_S512x64_S262144x1_S262144x64_1_0_0_1_wf : ScatterDims.WF S512x64 S262144x1 S262144x64 [1] [0] [0] 1
  scatter_S512_S262144x1_S262144_n_0_0_1_wf : ScatterDims.WF S512 S262144x1 S262144 [] [0] [0] 1

variable [Facts₀]

def dot_S262144x5_S5x128_S262144x128_1_0_0_1_n_n : DotDims S262144x5 S5x128 S262144x128 where
  lhsContracting := [1]
  rhsContracting := [0]
  lhsNonContracting := [0]
  rhsNonContracting := [1]
  lhsBatch := []
  rhsBatch := []
  wf := dot_S262144x5_S5x128_S262144x128_1_0_0_1_n_n_wf
def scatter_S262144_S785408x1_S785408_n_0_0_1 : ScatterDims S262144 S785408x1 S785408 where
  updateWindowDims := []
  insertedWindowDims := [0]
  scatterDimsToOperandDims := [0]
  indexVectorDim := 1
  wf := scatter_S262144_S785408x1_S785408_n_0_0_1_wf
def gather_S262144_S785408x1_S785408_n_0_n_n_0_1_1 : GatherDims S262144 S785408x1 S785408 where
  offsetDims := []
  collapsedSliceDims := [0]
  operandBatchingDims := []
  startIndicesBatchingDims := []
  startIndexMap := [0]
  indexVectorDim := 1
  sliceSizes := ![1]
  wf := gather_S262144_S785408x1_S785408_n_0_n_n_0_1_1_wf
def gather_S262144x128_S785408x1_S785408x128_1_0_n_n_0_1_1128 : GatherDims S262144x128 S785408x1 S785408x128 where
  offsetDims := [1]
  collapsedSliceDims := [0]
  operandBatchingDims := []
  startIndicesBatchingDims := []
  startIndexMap := [0]
  indexVectorDim := 1
  sliceSizes := ![1, 128]
  wf := gather_S262144x128_S785408x1_S785408x128_1_0_n_n_0_1_1128_wf
def scatter_S262144x128_S785408x1_S785408x128_1_0_0_1 : ScatterDims S262144x128 S785408x1 S785408x128 where
  updateWindowDims := [1]
  insertedWindowDims := [0]
  scatterDimsToOperandDims := [0]
  indexVectorDim := 1
  wf := scatter_S262144x128_S785408x1_S785408x128_1_0_0_1_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def gather_S262144x64_S785408x1_S785408x64_1_0_n_n_0_1_164 : GatherDims S262144x64 S785408x1 S785408x64 where
  offsetDims := [1]
  collapsedSliceDims := [0]
  operandBatchingDims := []
  startIndicesBatchingDims := []
  startIndexMap := [0]
  indexVectorDim := 1
  sliceSizes := ![1, 64]
  wf := gather_S262144x64_S785408x1_S785408x64_1_0_n_n_0_1_164_wf
def scatter_S262144x64_S785408x1_S785408x64_1_0_0_1 : ScatterDims S262144x64 S785408x1 S785408x64 where
  updateWindowDims := [1]
  insertedWindowDims := [0]
  scatterDimsToOperandDims := [0]
  indexVectorDim := 1
  wf := scatter_S262144x64_S785408x1_S785408x64_1_0_0_1_wf
def scatter_S512x64_S262144x1_S262144x64_1_0_0_1 : ScatterDims S512x64 S262144x1 S262144x64 where
  updateWindowDims := [1]
  insertedWindowDims := [0]
  scatterDimsToOperandDims := [0]
  indexVectorDim := 1
  wf := scatter_S512x64_S262144x1_S262144x64_1_0_0_1_wf
def scatter_S512_S262144x1_S262144_n_0_0_1 : ScatterDims S512 S262144x1 S262144 where
  updateWindowDims := []
  insertedWindowDims := [0]
  scatterDimsToOperandDims := [0]
  indexVectorDim := 1
  wf := scatter_S512_S262144x1_S262144_n_0_0_1_wf

class Facts : Prop extends Facts₀ where

variable [Facts]
-- ==== Proof.Layers.lean ====
/-
  The network both programs compute, written once as functions of arrays.

  A graph convolution takes node features `h`, multiplies them by a weight matrix (that product is left to the
  caller), gathers the product's row at every edge's source, scales it by the edge's symmetric normalisation
  `deg(src)^(-1/2) · deg(dst)^(-1/2)`, adds the scaled rows up at the edge's target and adds the bias. The edge list
  is the given one followed by one self loop per node; `deg` counts the edges arriving at a node. Two such layers
  with a rectifier between them, then the mean of the node outputs over each graph of the batch.

  Every function below is the composition of host operations that BOTH printed programs apply, in the same order and
  with the same literals; only the two matrix products are computed differently by the two programs, and they enter
  here as arguments. Nothing in this file is ever unfolded into arithmetic: the two programs are compared stage by
  stage on the values going IN to these functions.
-/
import proofs.«166744_j91302414778813_1_alg».proof.ReferenceIdeal
import proofs.«166744_j91302414778813_1_alg».proof.Proof.Gen.ReferenceIdeal

noncomputable section

namespace Cert.Layers

open Cert.ReferenceIdeal Cert.ReferenceIdeal.Gen Idealize.ShloMosaic

variable {F : FTy → Type} [FloatOps F]

/-- The features the layers see: the first five of a node's eight, the nodes of all graphs in one list. -/
def features (x : (⟨S512x512x8, .f32⟩ : BufTy).Contents (Elt F)) : (⟨S262144x5, .f32⟩ : BufTy).Contents (Elt F) :=
  shapeCast _ (extractStridedSlice S512x512x5 ![0, 0, 0] x slices_S512x512x8_S512x512x5_0_0_0) shapeCasts_S512x512x5_S262144x5

/-- Every edge's source: the given sources, then each node once (its self loop). -/
def sources (ei : (⟨S2x523264, .i32⟩ : BufTy).Contents (Elt F)) : (⟨S785408, .i32⟩ : BufTy).Contents (Elt F) :=
  concatenate S785408 0 [⟨S523264, (shapeCast _ (extractStridedSlice S1x523264 ![0, 0] ei slices_S2x523264_S1x523264_0_0) shapeCasts_S1x523264_S523264)⟩, ⟨S262144, (iotaInDim S262144 32 0)⟩] concatenates_S523264_S262144_S785408_d0

/-- Every edge's target: the given targets, then each node once. -/
def targets (ei : (⟨S2x523264, .i32⟩ : BufTy).Contents (Elt F)) : (⟨S785408, .i32⟩ : BufTy).Contents (Elt F) :=
  concatenate S785408 0 [⟨S523264, (shapeCast _ (extractStridedSlice S1x523264 ![1, 0] ei slices_S2x523264_S1x523264_1_0) shapeCasts_S1x523264_S523264)⟩, ⟨S262144, (iotaInDim S262144 32 0)⟩] concatenates_S523264_S262144_S785408_d0

/-- A node index as a row gather reads it: a negative index counts from the end. -/
def wrapped (ix : (⟨S785408, .i32⟩ : BufTy).Contents (Elt F)) : (⟨S785408x1, .i32⟩ : BufTy).Contents (Elt F) :=
  broadcastInDim S785408x1 ![0] bcast_S785408_S785408x1_0 (select (cmpi .slt ix (broadcastInDim S785408 ![] bcast_S_S785408 (constantI S_ 32 0#32))) (addi ix (broadcastInDim S785408 ![] bcast_S_S785408 (constantI S_ 32 262144#32))) ix)

/-- `deg^(-1/2)` per node, `deg` the number of edges arriving at it. -/
def invSqrtDegree (tgt : (⟨S785408, .i32⟩ : BufTy).Contents (Elt F)) : (⟨S262144, .f32⟩ : BufTy).Contents (Elt F) :=
  Host.rsqrt (Host.scatterAdd scatter_S262144_S785408x1_S785408_n_0_0_1 (broadcastInDim S262144 ![] bcast_S_S262144 (constant S_ .f32 0x00000000#32)) (broadcastInDim S785408x1 ![0] bcast_S785408_S785408x1_0 tgt) (broadcastInDim S785408 ![] bcast_S_S785408 (constant S_ .f32 0x3F800000#32)))

/-- Every edge's normalisation, as a column. -/
def edgeNorm (src tgt : (⟨S785408, .i32⟩ : BufTy).Contents (Elt F)) : (⟨S785408x1, .f32⟩ : BufTy).Contents (Elt F) :=
  broadcastInDim S785408x1 ![0] bcast_S785408_S785408x1_0 (mulf (Host.gather gather_S262144_S785408x1_S785408_n_0_n_n_0_1_1 (invSqrtDegree tgt) (wrapped src)) (Host.gather gather_S262144_S785408x1_S785408_n_0_n_n_0_1_1 (invSqrtDegree tgt) (wrapped tgt)))

/-- The first layer's aggregation of the 128-wide product `h`, plus the bias. -/
def aggregate128 (h : (⟨S262144x128, .f32⟩ : BufTy).Contents (Elt F)) (src tgt : (⟨S785408, .i32⟩ : BufTy).Contents (Elt F))
    (nrm : (⟨S785408x1, .f32⟩ : BufTy).Contents (Elt F)) (b : (⟨S128, .f32⟩ : BufTy).Contents (Elt F)) : (⟨S262144x128, .f32⟩ : BufTy).Contents (Elt F) :=
  addf (Host.scatterAdd scatter_S262144x128_S785408x1_S785408x128_1_0_0_1 (broadcastInDim S262144x128 ![] bcast_S_S262144x128 (constant S_ .f32 0x00000000#32)) (broadcastInDim S785408x1 ![0] bcast_S785408_S785408x1_0 tgt) (mulf (Host.gather gather_S262144x128_S785408x1_S785408x128_1_0_n_n_0_1_1128 h (wrapped src)) (broadcastInDim S785408x128 ![0, 1] bcast_S785408x1_S785408x128_0_1 nrm))) (broadcastInDim S262144x128 ![0, 1] bcast_S1x128_S262144x128_0_1 (broadcastInDim S1x128 ![1] bcast_S128_S1x128_1 b))

/-- The rectifier between the layers. -/
def rectified (h : (⟨S262144x128, .f32⟩ : BufTy).Contents (Elt F)) : (⟨S262144x128, .f32⟩ : BufTy).Contents (Elt F) :=
  maximumf h (broadcastInDim S262144x128 ![] bcast_S_S262144x128 (constant S_ .f32 0x00000000#32))

/-- The second layer's aggregation of the 64-wide product `h`, plus the bias. -/
def aggregate64 (h : (⟨S262144x64, .f32⟩ : BufTy).Contents (Elt F)) (src tgt : (⟨S785408, .i32⟩ : BufTy).Contents (Elt F))
    (nrm : (⟨S785408x1, .f32⟩ : BufTy).Contents (Elt F)) (b : (⟨S64, .f32⟩ : BufTy).Contents (Elt F)) : (⟨S262144x64, .f32⟩ : BufTy).Contents (Elt F) :=
  addf (Host.scatterAdd scatter_S262144x64_S785408x1_S785408x64_1_0_0_1 (broadcastInDim S262144x64 ![] bcast_S_S262144x64 (constant S_ .f32 0x00000000#32)) (broadcastInDim S785408x1 ![0] bcast_S785408_S785408x1_0 tgt) (mulf (Host.gather gather_S262144x64_S785408x1_S785408x64_1_0_n_n_0_1_164 h (wrapped src)) (broadcastInDim S785408x64 ![0, 1] bcast_S785408x1_S785408x64_0_1 nrm))) (broadcastInDim S262144x64 ![0, 1] bcast_S1x64_S262144x64_0_1 (broadcastInDim S1x64 ![1] bcast_S64_S1x64_1 b))

/-- The mean of the node outputs over each graph: the sum over the graph's nodes divided by their number. -/
def meanPool (h : (⟨S262144x64, .f32⟩ : BufTy).Contents (Elt F)) (graphOf : (⟨S262144, .i32⟩ : BufTy).Contents (Elt F)) : (⟨S512x64, .f32⟩ : BufTy).Contents (Elt F) :=
  Host.divf (Host.scatterAdd scatter_S512x64_S262144x1_S262144x64_1_0_0_1 (broadcastInDim S512x64 ![] bcast_S_S512x64 (constant S_ .f32 0x00000000#32)) (broadcastInDim S262144x1 ![0] bcast_S262144_S262144x1_0 graphOf) h) (broadcastInDim S512x64 ![0, 1] bcast_S512x1_S512x64_0_1 (broadcastInDim S512x1 ![0] bcast_S512_S512x1_0 (Host.scatterAdd scatter_S512_S262144x1_S262144_n_0_0_1 (broadcastInDim S512 ![] bcast_S_S512 (constant S_ .f32 0x00000000#32)) (broadcastInDim S262144x1 ![0] bcast_S262144_S262144x1_0 graphOf) (broadcastInDim S262144 ![] bcast_S_S262144 (constant S_ .f32 0x3F800000#32)))))

/-- The whole network, the two matrix products as the host computes them. -/
def network (x : (⟨S512x512x8, .f32⟩ : BufTy).Contents (Elt F)) (ei : (⟨S2x523264, .i32⟩ : BufTy).Contents (Elt F))
    (graphOf : (⟨S262144, .i32⟩ : BufTy).Contents (Elt F)) (W1 : (⟨S5x128, .f32⟩ : BufTy).Contents (Elt F))
    (b1 : (⟨S128, .f32⟩ : BufTy).Contents (Elt F)) (W2 : (⟨S128x64, .f32⟩ : BufTy).Contents (Elt F))
    (b2 : (⟨S64, .f32⟩ : BufTy).Contents (Elt F)) : (⟨S512x64, .f32⟩ : BufTy).Contents (Elt F) :=
  meanPool (aggregate64 (Host.dotGeneral dot_S262144x128_S128x64_S262144x64_1_0_0_1_n_n none
      (rectified (aggregate128 (Host.dotGeneral dot_S262144x5_S5x128_S262144x128_1_0_0_1_n_n none (features x) W1)
        (sources ei) (targets ei) (edgeNorm (sources ei) (targets ei)) b1)) W2)
    (sources ei) (targets ei) (edgeNorm (sources ei) (targets ei)) b2) graphOf

end Cert.Layers

end
-- ==== Proof.Linear1.lean ====
/-
  The first linear layer as the kernel computes it.

  The first pallas_call multiplies the node features `X : [262144, 5]` by the weights `W : [5, 128]` one block of
  8192 rows at a grid point: point `t` loads rows `8192·t … 8192·t + 8191` of `X` and all of `W`, forms their product
  into a zero accumulator and writes it back as rows `8192·t …` of the result. Over the extended reals the change of
  float format on the way into the product is the identity and the product into zero is the plain sum
  `∑ k, X[r, k] · W[k, q]`; the host's `dot_general` of the WHOLE arrays is the same sum at every index. So each block
  written back is that block of the whole product, the 32 blocks tile the result, and the result array ends holding
  the whole product of what the region found in its two operands.
-/
import proofs.«166744_j91302414778813_1_alg».proof.Proof.Gen.KernelIdeal.Frame
import proofs.«166744_j91302414778813_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Linear1

open Cert.KernelIdeal Cert.KernelIdeal.Gen Idealize.ShloMosaic Idealize.ShloMosaic.TcCoe Idealize.SL.Sem
open Idealize.ShloMosaic.Pipeline (Dat)

/-! ## The block product at an index -/

theorem blk_lhs_0 (j : S8192x128.Idx) (q : dot_S8192x5_S5x128_S8192x128_1_0_0_1_n_n.contr.Idx) :
    (dot_S8192x5_S5x128_S8192x128_1_0_0_1_n_n.lhsIdx j q 0).val = (j 0).val := by
  unfold DotDims.lhsIdx
  rw [dif_neg (show ¬(0 : Fin S8192x5.rank) ∈ dot_S8192x5_S5x128_S8192x128_1_0_0_1_n_n.lhsBatch by decide), dif_pos (show (0 : Fin S8192x5.rank) ∈ dot_S8192x5_S5x128_S8192x128_1_0_0_1_n_n.lhsNonContracting by decide)]
  rfl
theorem blk_lhs_1 (j : S8192x128.Idx) (q : dot_S8192x5_S5x128_S8192x128_1_0_0_1_n_n.contr.Idx) :
    (dot_S8192x5_S5x128_S8192x128_1_0_0_1_n_n.lhsIdx j q 1).val = (q ⟨0, by decide⟩).val :=
  dot_S8192x5_S5x128_S8192x128_1_0_0_1_n_n.lhsIdx_val_of_single rfl j q
theorem blk_rhs_0 (j : S8192x128.Idx) (q : dot_S8192x5_S5x128_S8192x128_1_0_0_1_n_n.contr.Idx) :
    (dot_S8192x5_S5x128_S8192x128_1_0_0_1_n_n.rhsIdx j q 0).val = (q ⟨0, by decide⟩).val :=
  dot_S8192x5_S5x128_S8192x128_1_0_0_1_n_n.rhsIdx_val_of_single rfl j q
theorem blk_rhs_1 (j : S8192x128.Idx) (q : dot_S8192x5_S5x128_S8192x128_1_0_0_1_n_n.contr.Idx) :
    (dot_S8192x5_S5x128_S8192x128_1_0_0_1_n_n.rhsIdx j q 1).val = (j 1).val := by
  unfold DotDims.rhsIdx
  rw [dif_neg (show ¬(1 : Fin S5x128.rank) ∈ dot_S8192x5_S5x128_S8192x128_1_0_0_1_n_n.rhsBatch by decide), dif_pos (show (1 : Fin S5x128.rank) ∈ dot_S8192x5_S5x128_S8192x128_1_0_0_1_n_n.rhsNonContracting by decide)]
  rfl

/-- Row `j₀`, column `k` of a block of features. -/
abbrev featAt (j : S8192x128.Idx) (k : Fin 5) : S8192x5.Idx := fun a => match a with
  | ⟨0, _⟩ => ⟨(j 0).val, (j 0).isLt⟩
  | ⟨1, _⟩ => ⟨k.val, k.isLt⟩
/-- Row `k`, column `j₁` of the weights. -/
abbrev weightAt (j : S8192x128.Idx) (k : Fin 5) : S5x128.Idx := fun a => match a with
  | ⟨0, _⟩ => ⟨k.val, k.isLt⟩
  | ⟨1, _⟩ => ⟨(j 1).val, (j 1).isLt⟩

/-- What the body stores, at an index: the sum over the five features of feature times weight. -/
theorem payload_apply (x0 : Vec Ideal S8192x5 .f32) (x1 : Vec Ideal S5x128 .f32) (j : S8192x128.Idx) :
    k0_pay1 (F := Ideal) x0 x1 j = ∑ k : Fin 5, x0 (featAt j k) * x1 (weightAt j k) := by
  unfold k0_pay1
  show FloatOps.matmul (F := Ideal) dot_S8192x5_S5x128_S8192x128_1_0_0_1_n_n none
    (shapeCast S8192x5 (x0 : FVec Ideal S8192x5 .f32) shapeCasts_S8192x5_S8192x5) (x1 : FVec Ideal S5x128 .f32)
    (constant S8192x128 .f32 0x00000000#32) j = _
  rw [Ideal.matmul_constant_zero_apply, shapeCast_self,
    ← Equiv.sum_comp (ValueIdx.contrEquiv1 dot_S8192x5_S5x128_S8192x128_1_0_0_1_n_n 5 rfl rfl).symm]
  refine Finset.sum_congr rfl fun k _ => ?_
  have hk := ValueIdx.contrEquiv1_symm_val dot_S8192x5_S5x128_S8192x128_1_0_0_1_n_n 5 rfl rfl k
  have el : dot_S8192x5_S5x128_S8192x128_1_0_0_1_n_n.lhsIdx j ((ValueIdx.contrEquiv1 dot_S8192x5_S5x128_S8192x128_1_0_0_1_n_n 5 rfl rfl).symm k) = featAt j k := funext fun a => Fin.ext (by
    match a with
    | ⟨0, _⟩ => exact blk_lhs_0 _ _
    | ⟨1, _⟩ => exact (blk_lhs_1 _ _).trans hk)
  have er : dot_S8192x5_S5x128_S8192x128_1_0_0_1_n_n.rhsIdx j ((ValueIdx.contrEquiv1 dot_S8192x5_S5x128_S8192x128_1_0_0_1_n_n 5 rfl rfl).symm k) = weightAt j k := funext fun a => Fin.ext (by
    match a with
    | ⟨0, _⟩ => exact (blk_rhs_0 _ _).trans hk
    | ⟨1, _⟩ => exact blk_rhs_1 _ _)
  rw [el, er]

/-! ## The whole product at an index -/

/-- The host's product of the WHOLE feature array with the weights, at an index: the same sum over the five features. -/
theorem whole_apply (A : FVec Ideal S262144x5 .f32) (B : FVec Ideal S5x128 .f32) (i : S262144x128.Idx) :
    Host.dotGeneral (F := Ideal) Cert.ReferenceIdeal.dot_S262144x5_S5x128_S262144x128_1_0_0_1_n_n none A B i
      = ∑ k : Fin 5, A (Cert.ReferenceIdeal.Read.lidx_main_v2 i k) * B (Cert.ReferenceIdeal.Read.ridx_main_v2 i k) := by
  simp only [Host.dotGeneral]
  rw [Ideal.dotGeneral_apply, ← Equiv.sum_comp (ValueIdx.contrEquiv1 Cert.ReferenceIdeal.dot_S262144x5_S5x128_S262144x128_1_0_0_1_n_n 5 rfl rfl).symm]
  refine Finset.sum_congr rfl fun k _ => ?_
  have hk := ValueIdx.contrEquiv1_symm_val Cert.ReferenceIdeal.dot_S262144x5_S5x128_S262144x128_1_0_0_1_n_n 5 rfl rfl k
  have el : Cert.ReferenceIdeal.dot_S262144x5_S5x128_S262144x128_1_0_0_1_n_n.lhsIdx i ((ValueIdx.contrEquiv1 Cert.ReferenceIdeal.dot_S262144x5_S5x128_S262144x128_1_0_0_1_n_n 5 rfl rfl).symm k) = Cert.ReferenceIdeal.Read.lidx_main_v2 i k := funext fun a => Fin.ext (by
    match a with
    | ⟨0, _⟩ => exact Cert.ReferenceIdeal.Read.lhs_main_v2_0 _ _
    | ⟨1, _⟩ => exact (Cert.ReferenceIdeal.Read.lhs_main_v2_1 _ _).trans hk)
  have er : Cert.ReferenceIdeal.dot_S262144x5_S5x128_S262144x128_1_0_0_1_n_n.rhsIdx i ((ValueIdx.contrEquiv1 Cert.ReferenceIdeal.dot_S262144x5_S5x128_S262144x128_1_0_0_1_n_n 5 rfl rfl).symm k) = Cert.ReferenceIdeal.Read.ridx_main_v2 i k := funext fun a => Fin.ext (by
    match a with
    | ⟨0, _⟩ => exact (Cert.ReferenceIdeal.Read.rhs_main_v2_0 _ _).trans hk
    | ⟨1, _⟩ => exact Cert.ReferenceIdeal.Read.rhs_main_v2_1 _ _)
  rw [el, er]

/-! ## From the blocks to the array -/

theorem hz : (![0, 0] : Fin 2 → Nat) = fun _ => 0 := funext fun a => by fin_cases a <;> rfl

/-- The three windows' block indices at a grid point, decided over the 32 points: the features' and the result's row
    block is the point itself, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The region's two operands as it finds them, at their literal types. -/
abbrev featArr (c : Dev nD) : FVec Ideal S262144x5 .f32 := V c main_v1
abbrev weightArr (c : Dev nD) : FVec Ideal S5x128 .f32 := V c main_arg3

/-- The whole product of the region's two operands as the region finds them. -/
abbrev whole (c : Dev nD) : FVec Ideal S262144x128 .f32 :=
  Host.dotGeneral (F := Ideal) Cert.ReferenceIdeal.dot_S262144x5_S5x128_S262144x128_1_0_0_1_n_n none (featArr V c) (weightArr V c)

/-- What point `t` writes back is block `t` of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S8192x5) hz, View.ld_unit_zero (S := S5x128) hz]
  obtain ⟨e0, e1, e2, e3, e4, e5⟩ := idx_facts t
  funext j
  show k0_pay1 (F := Ideal) (iblk0 V c 0 t) (iblk0 V c 1 t) j = whole V c (((cfg0.win 2).blk t).view.emb j)
  refine (payload_apply (iblk0 V c 0 t) (iblk0 V c 1 t) j).trans ?_
  refine Eq.trans ?_ (whole_apply _ _ _).symm
  refine Finset.sum_congr rfl fun k _ => ?_
  have h0 : ((cfg0.win 0).blk t).view.emb (featAt j k) = Cert.ReferenceIdeal.Read.lidx_main_v2 (((cfg0.win 2).blk t).view.emb j) k := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 5 + 1 * k.val = k.val; omega
  have h1 : ((cfg0.win 1).blk t).view.emb (weightAt j k) = Cert.ReferenceIdeal.Read.ridx_main_v2 (((cfg0.win 2).blk t).view.emb j) k := by
    funext a; apply Fin.ext
    match a with
    | ⟨0, _⟩ => show win0_1.index t (0 : Fin 2) * 5 + 1 * k.val = k.val; omega
    | ⟨1, _⟩ => show win0_1.index t (1 : Fin 2) * 128 + 1 * (j 1).val = win0_2.index t (1 : Fin 2) * 128 + 1 * (j 1).val; omega
  show featArr V c (((cfg0.win 0).blk t).view.emb (featAt j k)) * weightArr V c (((cfg0.win 1).blk t).view.emb (weightAt j k)) = _
  rw [h0, h1]

/-- An index of the result is in point `t`'s block iff each coordinate is in the block's range on its axis. -/
theorem mem_blk (t : Fin cfg0.N) (i : S262144x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v30).slice (win0_2.rect t)).set ↔ _
  rw [View.set_slice_whole, Rect.mem_set_unit]
  exact Iff.rfl

/-- The 32 blocks tile the result: row `r` lies in block `r / 8192`. -/
theorem cover (i : S262144x128.Idx) : ∃ t : Fin cfg0.N, (cfg0.win 2).flush t = true ∧ i ∈ ((cfg0.win 2).blk t).view.set := by
  have hi0 : (i 0).val < 262144 := (i 0).isLt
  have hi1 : (i 1).val < 128 := (i 1).isLt
  obtain ⟨t, ht⟩ : ∃ t : Fin cfg0.N, t.val = (i 0).val / 8192 :=
    ⟨⟨(i 0).val / 8192, by have hN := N_0; show _ < grid0.N; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- THE RESULT ARRAY after the region: the whole product of the two operands as the region found them. -/
theorem array_eq (c : Dev nD) : (dat0 V c).arrAt 2 cfg0.N = whole V c :=
  (dat0 V c).arrAt_eq_of_cover 2 (whole V c) (fun t _ => flushed_eq V c t) cover

end Cert.KernelIdeal.Linear1

end
-- ==== Proof.Linear2.lean ====
/-
  The second linear layer as the kernel computes it.

  The second pallas_call multiplies the hidden features `H : [262144, 128]` (the rectified output of the first layer)
  by the weights `W : [128, 64]`, again one block of 8192 rows at a grid point into a zero accumulator. Over the
  extended reals point `t` writes back `∑ k, H[8192·t + r, k] · W[k, q]`, which is block `t` of the host's
  `dot_general` of the whole arrays; the 32 blocks tile the result, so the result array ends holding the whole
  product of what the region found in its two operands.
-/
import proofs.«166744_j91302414778813_1_alg».proof.Proof.Gen.KernelIdeal.Frame
import proofs.«166744_j91302414778813_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Linear2

open Cert.KernelIdeal Cert.KernelIdeal.Gen Idealize.ShloMosaic Idealize.ShloMosaic.TcCoe Idealize.SL.Sem
open Idealize.ShloMosaic.Pipeline (Dat)

/-! ## The block product at an index -/

theorem blk_lhs_0 (j : S8192x64.Idx) (q : dot_S8192x128_S128x64_S8192x64_1_0_0_1_n_n.contr.Idx) :
    (dot_S8192x128_S128x64_S8192x64_1_0_0_1_n_n.lhsIdx j q 0).val = (j 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem blk_lhs_1 (j : S8192x64.Idx) (q : dot_S8192x128_S128x64_S8192x64_1_0_0_1_n_n.contr.Idx) :
    (dot_S8192x128_S128x64_S8192x64_1_0_0_1_n_n.lhsIdx j q 1).val = (q ⟨0, by decide⟩).val :=
  dot_S8192x128_S128x64_S8192x64_1_0_0_1_n_n.lhsIdx_val_of_single rfl j q
theorem blk_rhs_0 (j : S8192x64.Idx) (q : dot_S8192x128_S128x64_S8192x64_1_0_0_1_n_n.contr.Idx) :
    (dot_S8192x128_S128x64_S8192x64_1_0_0_1_n_n.rhsIdx j q 0).val = (q ⟨0, by decide⟩).val :=
  dot_S8192x128_S128x64_S8192x64_1_0_0_1_n_n.rhsIdx_val_of_single rfl j q
theorem blk_rhs_1 (j : S8192x64.Idx) (q : dot_S8192x128_S128x64_S8192x64_1_0_0_1_n_n.contr.Idx) :
    (dot_S8192x128_S128x64_S8192x64_1_0_0_1_n_n.rhsIdx j q 1).val = (j 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- Row `j₀`, column `k` of a block of hidden features. -/
abbrev hiddenAt (j : S8192x64.Idx) (k : Fin 128) : S8192x128.Idx := fun a => match a with
  | ⟨0, _⟩ => ⟨(j 0).val, (j 0).isLt⟩
  | ⟨1, _⟩ => ⟨k.val, k.isLt⟩
/-- Row `k`, column `j₁` of the weights. -/
abbrev weightAt (j : S8192x64.Idx) (k : Fin 128) : S128x64.Idx := fun a => match a with
  | ⟨0, _⟩ => ⟨k.val, k.isLt⟩
  | ⟨1, _⟩ => ⟨(j 1).val, (j 1).isLt⟩

/-- What the body stores, at an index: the sum over the 128 hidden features of feature times weight. -/
theorem payload_apply (x0 : Vec Ideal S8192x128 .f32) (x1 : Vec Ideal S128x64 .f32) (j : S8192x64.Idx) :
    k1_pay1 (F := Ideal) x0 x1 j = ∑ k : Fin 128, x0 (hiddenAt j k) * x1 (weightAt j k) := by
  unfold k1_pay1
  show FloatOps.matmul (F := Ideal) dot_S8192x128_S128x64_S8192x64_1_0_0_1_n_n none
    (shapeCast S8192x128 (x0 : FVec Ideal S8192x128 .f32) shapeCasts_S8192x128_S8192x128) (x1 : FVec Ideal S128x64 .f32)
    (constant S8192x64 .f32 0x00000000#32) j = _
  rw [Ideal.matmul_constant_zero_apply, shapeCast_self,
    ← Equiv.sum_comp (ValueIdx.contrEquiv1 dot_S8192x128_S128x64_S8192x64_1_0_0_1_n_n 128 rfl rfl).symm]
  refine Finset.sum_congr rfl fun k _ => ?_
  have hk := ValueIdx.contrEquiv1_symm_val dot_S8192x128_S128x64_S8192x64_1_0_0_1_n_n 128 rfl rfl k
  have el : dot_S8192x128_S128x64_S8192x64_1_0_0_1_n_n.lhsIdx j ((ValueIdx.contrEquiv1 dot_S8192x128_S128x64_S8192x64_1_0_0_1_n_n 128 rfl rfl).symm k) = hiddenAt j k := funext fun a => Fin.ext (by
    match a with
    | ⟨0, _⟩ => exact blk_lhs_0 _ _
    | ⟨1, _⟩ => exact (blk_lhs_1 _ _).trans hk)
  have er : dot_S8192x128_S128x64_S8192x64_1_0_0_1_n_n.rhsIdx j ((ValueIdx.contrEquiv1 dot_S8192x128_S128x64_S8192x64_1_0_0_1_n_n 128 rfl rfl).symm k) = weightAt j k := funext fun a => Fin.ext (by
    match a with
    | ⟨0, _⟩ => exact (blk_rhs_0 _ _).trans hk
    | ⟨1, _⟩ => exact blk_rhs_1 _ _)
  rw [el, er]

/-! ## The whole product at an index -/

/-- The host's product of the WHOLE hidden-feature array with the weights, at an index: the same sum over the 128
    hidden features. -/
theorem whole_apply (A : FVec Ideal S262144x128 .f32) (B : FVec Ideal S128x64 .f32) (i : S262144x64.Idx) :
    Host.dotGeneral (F := Ideal) Cert.ReferenceIdeal.dot_S262144x128_S128x64_S262144x64_1_0_0_1_n_n none A B i
      = ∑ k : Fin 128, A (Cert.ReferenceIdeal.Read.lidx_main_v47 i k) * B (Cert.ReferenceIdeal.Read.ridx_main_v47 i k) := by
  simp only [Host.dotGeneral]
  rw [Ideal.dotGeneral_apply, ← Equiv.sum_comp (ValueIdx.contrEquiv1 Cert.ReferenceIdeal.dot_S262144x128_S128x64_S262144x64_1_0_0_1_n_n 128 rfl rfl).symm]
  refine Finset.sum_congr rfl fun k _ => ?_
  have hk := ValueIdx.contrEquiv1_symm_val Cert.ReferenceIdeal.dot_S262144x128_S128x64_S262144x64_1_0_0_1_n_n 128 rfl rfl k
  have el : Cert.ReferenceIdeal.dot_S262144x128_S128x64_S262144x64_1_0_0_1_n_n.lhsIdx i ((ValueIdx.contrEquiv1 Cert.ReferenceIdeal.dot_S262144x128_S128x64_S262144x64_1_0_0_1_n_n 128 rfl rfl).symm k) = Cert.ReferenceIdeal.Read.lidx_main_v47 i k := funext fun a => Fin.ext (by
    match a with
    | ⟨0, _⟩ => exact Cert.ReferenceIdeal.Read.lhs_main_v47_0 _ _
    | ⟨1, _⟩ => exact (Cert.ReferenceIdeal.Read.lhs_main_v47_1 _ _).trans hk)
  have er : Cert.ReferenceIdeal.dot_S262144x128_S128x64_S262144x64_1_0_0_1_n_n.rhsIdx i ((ValueIdx.contrEquiv1 Cert.ReferenceIdeal.dot_S262144x128_S128x64_S262144x64_1_0_0_1_n_n 128 rfl rfl).symm k) = Cert.ReferenceIdeal.Read.ridx_main_v47 i k := funext fun a => Fin.ext (by
    match a with
    | ⟨0, _⟩ => exact (Cert.ReferenceIdeal.Read.rhs_main_v47_0 _ _).trans hk
    | ⟨1, _⟩ => exact Cert.ReferenceIdeal.Read.rhs_main_v47_1 _ _)
  rw [el, er]

/-! ## From the blocks to the array -/

theorem hz : (![0, 0] : Fin 2 → Nat) = fun _ => 0 := funext fun a => by fin_cases a <;> rfl

/-- The three windows' block indices at a grid point, decided over the 32 points: the hidden features' and the
    result's row block is the point itself, every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The region's two operands as it finds them, at their literal types. -/
abbrev hiddenArr (c : Dev nD) : FVec Ideal S262144x128 .f32 := V c main_v46
abbrev weightArr (c : Dev nD) : FVec Ideal S128x64 .f32 := V c main_arg5

/-- The whole product of the region's two operands as the region finds them. -/
abbrev whole (c : Dev nD) : FVec Ideal S262144x64 .f32 :=
  Host.dotGeneral (F := Ideal) Cert.ReferenceIdeal.dot_S262144x128_S128x64_S262144x64_1_0_0_1_n_n none (hiddenArr V c) (weightArr V c)

/-- What point `t` writes back is block `t` of the whole product. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S8192x128) hz, View.ld_unit_zero (S := S128x64) hz]
  obtain ⟨e0, e1, e2, e3, e4, e5⟩ := idx_facts t
  funext j
  show k1_pay1 (F := Ideal) (iblk1 V c 0 t) (iblk1 V c 1 t) j = whole V c (((cfg1.win 2).blk t).view.emb j)
  refine (payload_apply (iblk1 V c 0 t) (iblk1 V c 1 t) j).trans ?_
  refine Eq.trans ?_ (whole_apply _ _ _).symm
  refine Finset.sum_congr rfl fun k _ => ?_
  have h0 : ((cfg1.win 0).blk t).view.emb (hiddenAt j k) = Cert.ReferenceIdeal.Read.lidx_main_v47 (((cfg1.win 2).blk t).view.emb j) k := by
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 128 + 1 * k.val = k.val; omega
  have h1 : ((cfg1.win 1).blk t).view.emb (weightAt j k) = Cert.ReferenceIdeal.Read.ridx_main_v47 (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  show hiddenArr V c (((cfg1.win 0).blk t).view.emb (hiddenAt j k)) * weightArr V c (((cfg1.win 1).blk t).view.emb (weightAt j k)) = _
  rw [h0, h1]

/-- An index of the result is in point `t`'s block iff each coordinate is in the block's range on its axis. -/
theorem mem_blk (t : Fin cfg1.N) (i : S262144x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v47).slice (win1_2.rect t)).set ↔ _
  rw [View.set_slice_whole, Rect.mem_set_unit]
  exact Iff.rfl

/-- The 32 blocks tile the result: row `r` lies in block `r / 8192`. -/
theorem cover (i : S262144x64.Idx) : ∃ t : Fin cfg1.N, (cfg1.win 2).flush t = true ∧ i ∈ ((cfg1.win 2).blk t).view.set := by
  have hi0 : (i 0).val < 262144 := (i 0).isLt
  have hi1 : (i 1).val < 64 := (i 1).isLt
  obtain ⟨t, ht⟩ : ∃ t : Fin cfg1.N, t.val = (i 0).val / 8192 :=
    ⟨⟨(i 0).val / 8192, by have hN := N_1; show _ < grid1.N; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 64 ≤ (i 1).val ∧ (i 1).val < win1_2.index t (1 : Fin 2) * 64 + 64; omega

/-- THE RESULT ARRAY after the region: the whole product of the two operands as the region found them. -/
theorem array_eq (c : Dev nD) : (dat1 V c).arrAt 2 cfg1.N = whole V c :=
  (dat1 V c).arrAt_eq_of_cover 2 (whole V c) (fun t _ => flushed_eq V c t) cover

end Cert.KernelIdeal.Linear2

end
-- ==== Proof.KernelValue.lean ====
/-
  The idealized kernel's result, as the network of its argument arrays.

  The kernel's program is four stretches of host operations around its two pallas_calls. Each stretch is read here as
  one of the functions of `Layers` applied to the buffer contents the stretch starts from (the operations are literally
  the ones those functions compose), a buffer no operation of a stretch writes is carried through it unchanged, and each
  pallas_call leaves in its result array the whole matrix product of its two operands and nothing else changed. Walking
  the run from the launch to the return, the result buffer ends at `Layers.network` of the seven argument arrays.
-/
import proofs.«166744_j91302414778813_1_alg».proof.Proof.Gen.KernelIdeal.Frame
import proofs.«166744_j91302414778813_1_alg».proof.Proof.Layers
import proofs.«166744_j91302414778813_1_alg».proof.Proof.Linear1
import proofs.«166744_j91302414778813_1_alg».proof.Proof.Linear2
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo

/-- Reads a buffer after a literal stretch of host operations: each operation's result at its own buffer is its
    function's value, at any other buffer what was there; what is left is an equation between the same operations. -/
local macro "read_stretch" : tactic => `(tactic| (after_results_simp <;> rfl))

section Stretches

variable {F : FTy → Type} [FloatOps F]
variable (W : Valuation τ sig (Elt F))

/-! ## The stretch before the first product -/

theorem s0_features : after hostOps0 W (Proc.devRef .tc main_v1) = Cert.Layers.features (W (Proc.devRef .tc main_arg0)) := by
  read_stretch
theorem s0_sources : after hostOps0 W (Proc.devRef .tc main_v5) = Cert.Layers.sources (W (Proc.devRef .tc main_arg1)) := by
  read_stretch
theorem s0_targets : after hostOps0 W (Proc.devRef .tc main_v8) = Cert.Layers.targets (W (Proc.devRef .tc main_arg1)) := by
  read_stretch
theorem s0_norm : after hostOps0 W (Proc.devRef .tc main_v29)
    = Cert.Layers.edgeNorm (Cert.Layers.sources (W (Proc.devRef .tc main_arg1))) (Cert.Layers.targets (W (Proc.devRef .tc main_arg1))) := by
  read_stretch
theorem s0_arg2 : after hostOps0 W (Proc.devRef .tc main_arg2) = W (Proc.devRef .tc main_arg2) := by read_stretch
theorem s0_arg3 : after hostOps0 W (Proc.devRef .tc main_arg3) = W (Proc.devRef .tc main_arg3) := by read_stretch
theorem s0_arg4 : after hostOps0 W (Proc.devRef .tc main_arg4) = W (Proc.devRef .tc main_arg4) := by read_stretch
theorem s0_arg5 : after hostOps0 W (Proc.devRef .tc main_arg5) = W (Proc.devRef .tc main_arg5) := by read_stretch
theorem s0_arg6 : after hostOps0 W (Proc.devRef .tc main_arg6) = W (Proc.devRef .tc main_arg6) := by read_stretch

/-! ## The stretch between the two products -/

theorem s1_hidden : after hostOps1_1 (after hostOps1 W) (Proc.devRef .tc main_v46)
    = Cert.Layers.rectified (Cert.Layers.aggregate128 (W (Proc.devRef .tc main_v30)) (W (Proc.devRef .tc main_v5))
        (W (Proc.devRef .tc main_v8)) (W (Proc.devRef .tc main_v29)) (W (Proc.devRef .tc main_arg4))) := by
  read_stretch
theorem s1_v5 : after hostOps1_1 (after hostOps1 W) (Proc.devRef .tc main_v5) = W (Proc.devRef .tc main_v5) := by read_stretch
theorem s1_v8 : after hostOps1_1 (after hostOps1 W) (Proc.devRef .tc main_v8) = W (Proc.devRef .tc main_v8) := by read_stretch
theorem s1_v29 : after hostOps1_1 (after hostOps1 W) (Proc.devRef .tc main_v29) = W (Proc.devRef .tc main_v29) := by read_stretch
theorem s1_arg2 : after hostOps1_1 (after hostOps1 W) (Proc.devRef .tc main_arg2) = W (Proc.devRef .tc main_arg2) := by read_stretch
theorem s1_arg5 : after hostOps1_1 (after hostOps1 W) (Proc.devRef .tc main_arg5) = W (Proc.devRef .tc main_arg5) := by read_stretch
theorem s1_arg6 : after hostOps1_1 (after hostOps1 W) (Proc.devRef .tc main_arg6) = W (Proc.devRef .tc main_arg6) := by read_stretch

/-! ## The stretch after the second product -/

theorem s2_result : after hostOps2 W (Proc.devRef .tc main_v72)
    = Cert.Layers.meanPool (Cert.Layers.aggregate64 (W (Proc.devRef .tc main_v47)) (W (Proc.devRef .tc main_v5))
        (W (Proc.devRef .tc main_v8)) (W (Proc.devRef .tc main_v29)) (W (Proc.devRef .tc main_arg6))) (W (Proc.devRef .tc main_arg2)) := by
  read_stretch

end Stretches

/-! ## The walk from the launch to the return -/

section Walk

variable (m : (ℓ : Loc nD τ sig) → Buf (Elt Ideal) ℓ) (ρ : Dev nD → PrngReg) (c : Dev nD)

/-- The seven argument arrays as launched. -/
abbrev inFeat := m ((c : Thread nD τ).loc main_arg0)
abbrev inEdges := m ((c : Thread nD τ).loc main_arg1)
abbrev inGraph := m ((c : Thread nD τ).loc main_arg2)
abbrev inW1 := m ((c : Thread nD τ).loc main_arg3)
abbrev inB1 := m ((c : Thread nD τ).loc main_arg4)
abbrev inW2 := m ((c : Thread nD τ).loc main_arg5)
abbrev inB2 := m ((c : Thread nD τ).loc main_arg6)

/-- The values the run passes through, as functions of the arguments. -/
abbrev src := Cert.Layers.sources (inEdges m c)
abbrev tgt := Cert.Layers.targets (inEdges m c)
abbrev nrm := Cert.Layers.edgeNorm (src m c) (tgt m c)
abbrev lin1 := Host.dotGeneral (F := Ideal) (φ₁ := .f32) (φ₂ := .f32) Cert.ReferenceIdeal.dot_S262144x5_S5x128_S262144x128_1_0_0_1_n_n none
  (Cert.Layers.features (inFeat m c)) (inW1 m c)
abbrev hid := Cert.Layers.rectified (Cert.Layers.aggregate128 (lin1 m c) (src m c) (tgt m c) (nrm m c) (inB1 m c))
abbrev lin2 := Host.dotGeneral (F := Ideal) (φ₁ := .f32) (φ₂ := .f32) Cert.ReferenceIdeal.dot_S262144x128_S128x64_S262144x64_1_0_0_1_n_n none
  (hid m c) (inW2 m c)

/-! ### At the first region's entry -/

theorem at1_v1 : W1 m ρ c (Proc.devRef .tc main_v1) = Cert.Layers.features (inFeat m c) := s0_features (W0 m ρ c)
theorem at1_v5 : W1 m ρ c (Proc.devRef .tc main_v5) = src m c := s0_sources (W0 m ρ c)
theorem at1_v8 : W1 m ρ c (Proc.devRef .tc main_v8) = tgt m c := s0_targets (W0 m ρ c)
theorem at1_v29 : W1 m ρ c (Proc.devRef .tc main_v29) = nrm m c := s0_norm (W0 m ρ c)
theorem at1_arg2 : W1 m ρ c (Proc.devRef .tc main_arg2) = inGraph m c := s0_arg2 (W0 m ρ c)
theorem at1_arg3 : W1 m ρ c (Proc.devRef .tc main_arg3) = inW1 m c := s0_arg3 (W0 m ρ c)
theorem at1_arg4 : W1 m ρ c (Proc.devRef .tc main_arg4) = inB1 m c := s0_arg4 (W0 m ρ c)
theorem at1_arg5 : W1 m ρ c (Proc.devRef .tc main_arg5) = inW2 m c := s0_arg5 (W0 m ρ c)
theorem at1_arg6 : W1 m ρ c (Proc.devRef .tc main_arg6) = inB2 m c := s0_arg6 (W0 m ρ c)

/-! ### At the first region's exit: its result array holds the first product, nothing else moved -/

theorem at2_v30 : W2 m ρ c (Proc.devRef .tc main_v30) = lin1 m c := by
  refine (W2_arr m ρ c 2).trans ?_
  rw [Cert.KernelIdeal.Linear1.array_eq]
  show Host.dotGeneral (F := Ideal) Cert.ReferenceIdeal.dot_S262144x5_S5x128_S262144x128_1_0_0_1_n_n none
    (W1 m ρ c (Proc.devRef .tc main_v1)) (W1 m ρ c (Proc.devRef .tc main_arg3)) = _
  rw [at1_v1, at1_arg3]
theorem at2_v5 : W2 m ρ c (Proc.devRef .tc main_v5) = src m c := (W2_of_ne m ρ c main_v5 (by decide)).trans (at1_v5 m ρ c)
theorem at2_v8 : W2 m ρ c (Proc.devRef .tc main_v8) = tgt m c := (W2_of_ne m ρ c main_v8 (by decide)).trans (at1_v8 m ρ c)
theorem at2_v29 : W2 m ρ c (Proc.devRef .tc main_v29) = nrm m c := (W2_of_ne m ρ c main_v29 (by decide)).trans (at1_v29 m ρ c)
theorem at2_arg2 : W2 m ρ c (Proc.devRef .tc main_arg2) = inGraph m c := (W2_of_ne m ρ c main_arg2 (by decide)).trans (at1_arg2 m ρ c)
theorem at2_arg4 : W2 m ρ c (Proc.devRef .tc main_arg4) = inB1 m c := (W2_of_ne m ρ c main_arg4 (by decide)).trans (at1_arg4 m ρ c)
theorem at2_arg5 : W2 m ρ c (Proc.devRef .tc main_arg5) = inW2 m c := (W2_of_ne m ρ c main_arg5 (by decide)).trans (at1_arg5 m ρ c)
theorem at2_arg6 : W2 m ρ c (Proc.devRef .tc main_arg6) = inB2 m c := (W2_of_ne m ρ c main_arg6 (by decide)).trans (at1_arg6 m ρ c)

/-! ### At the second region's entry -/

theorem at4_v46 : W4 m ρ c (Proc.devRef .tc main_v46) = hid m c := by
  refine (s1_hidden (W2 m ρ c)).trans ?_
  rw [at2_v30, at2_v5, at2_v8, at2_v29, at2_arg4]
theorem at4_v5 : W4 m ρ c (Proc.devRef .tc main_v5) = src m c := (s1_v5 (W2 m ρ c)).trans (at2_v5 m ρ c)
theorem at4_v8 : W4 m ρ c (Proc.devRef .tc main_v8) = tgt m c := (s1_v8 (W2 m ρ c)).trans (at2_v8 m ρ c)
theorem at4_v29 : W4 m ρ c (Proc.devRef .tc main_v29) = nrm m c := (s1_v29 (W2 m ρ c)).trans (at2_v29 m ρ c)
theorem at4_arg2 : W4 m ρ c (Proc.devRef .tc main_arg2) = inGraph m c := (s1_arg2 (W2 m ρ c)).trans (at2_arg2 m ρ c)
theorem at4_arg5 : W4 m ρ c (Proc.devRef .tc main_arg5) = inW2 m c := (s1_arg5 (W2 m ρ c)).trans (at2_arg5 m ρ c)
theorem at4_arg6 : W4 m ρ c (Proc.devRef .tc main_arg6) = inB2 m c := (s1_arg6 (W2 m ρ c)).trans (at2_arg6 m ρ c)

/-! ### At the second region's exit: its result array holds the second product, nothing else moved -/

theorem at5_v47 : W5 m ρ c (Proc.devRef .tc main_v47) = lin2 m c := by
  refine (W5_arr m ρ c 2).trans ?_
  rw [Cert.KernelIdeal.Linear2.array_eq]
  show Host.dotGeneral (F := Ideal) Cert.ReferenceIdeal.dot_S262144x128_S128x64_S262144x64_1_0_0_1_n_n none
    (W4 m ρ c (Proc.devRef .tc main_v46)) (W4 m ρ c (Proc.devRef .tc main_arg5)) = _
  rw [at4_v46, at4_arg5]
theorem at5_v5 : W5 m ρ c (Proc.devRef .tc main_v5) = src m c := (W5_of_ne m ρ c main_v5 (by decide)).trans (at4_v5 m ρ c)
theorem at5_v8 : W5 m ρ c (Proc.devRef .tc main_v8) = tgt m c := (W5_of_ne m ρ c main_v8 (by decide)).trans (at4_v8 m ρ c)
theorem at5_v29 : W5 m ρ c (Proc.devRef .tc main_v29) = nrm m c := (W5_of_ne m ρ c main_v29 (by decide)).trans (at4_v29 m ρ c)
theorem at5_arg2 : W5 m ρ c (Proc.devRef .tc main_arg2) = inGraph m c := (W5_of_ne m ρ c main_arg2 (by decide)).trans (at4_arg2 m ρ c)
theorem at5_arg6 : W5 m ρ c (Proc.devRef .tc main_arg6) = inB2 m c := (W5_of_ne m ρ c main_arg6 (by decide)).trans (at4_arg6 m ρ c)

/-! ### At the return -/

/-- THE RESULT: the buffer the program returns ends at the network of the seven argument arrays. -/
theorem result_eq : W6 m ρ c (Proc.devRef .tc main_v72)
    = Cert.Layers.network (inFeat m c) (inEdges m c) (inGraph m c) (inW1 m c) (inB1 m c) (inW2 m c) (inB2 m c) := by
  refine (s2_result (W5 m ρ c)).trans ?_
  rw [at5_v47, at5_v5, at5_v8, at5_v29, at5_arg6, at5_arg2]
  rfl

end Walk

end Cert.KernelIdeal.Result

end
-- ==== Proof.ReferenceValue.lean ====
/-
  The idealized reference's result, as the network of its argument arrays.

  The reference is one straight line of host operations; its generated run states the result as those operations
  composed, every intermediate written out in place. That composition is `Layers.network` with its definitions opened:
  the same operations in the same order on the same arguments (the reference recomputes the edge lists and their
  normalisation for the second layer, which is the same term twice).
-/
import proofs.«166744_j91302414778813_1_alg».proof.Proof.Gen.ReferenceIdeal.Run
import proofs.«166744_j91302414778813_1_alg».proof.Proof.Layers

set_option maxRecDepth 16384

noncomputable section

namespace Cert.ReferenceIdeal.Result

open Cert.ReferenceIdeal Cert.ReferenceIdeal.Gen Idealize.ShloMosaic Idealize.ShloMosaic.TcCoe Idealize.SL.Sem

variable {F : FTy → Type} [FloatOps F]

/-- The run's result term is the network of the seven argument arrays. -/
theorem result_eq (m : (ℓ : Loc nD τ sig) → Buf (Elt F) ℓ) (c : Dev nD) :
    Cert.ReferenceIdeal.Value.res_out0 m c
      = Cert.Layers.network (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  show Cert.ReferenceIdeal.Value.res_main_v100 m c = _
  unfold Cert.ReferenceIdeal.Value.res_main_v100
  rfl

end Cert.ReferenceIdeal.Result

end
-- ==== Proof.lean ====
/-
  Two graph-convolution layers and a mean pool, the two linear maps as tiled TensorCore kernels, against the same
  network written with whole-array matrix products.

  Both programs slice the first five features of every node, extend the edge list by one self loop per node, count
  the edges arriving at each node, and form every edge's normalisation `deg(src)^(-1/2) · deg(dst)^(-1/2)`. A layer
  multiplies the node features by its weights, gathers the product's row at each edge's source, scales it by the
  edge's normalisation, sums the scaled rows at the edge's target and adds the bias; the first layer is followed by a
  rectifier, the second by the mean over each graph's nodes. The programs differ in ONE thing: the kernel forms each
  of the two products `X · W` a block of 8192 rows at a time, on operands narrowed to bf16, into a zero accumulator,
  where the reference applies one `dot_general` to the whole arrays. Over the extended reals the narrowing is the
  identity, a block's product into zero is `∑ k, X[r, k] · W[k, q]` on its rows, the blocks tile the result, and the
  whole-array product is the same sum at every index — so each kernel region leaves exactly the reference's product
  (`Linear1`, `Linear2`), every other step is the same host operation applied to equal values (`Layers`,
  `KernelValue`, `ReferenceValue`), and the results agree. No law of arithmetic beyond the definition of the two
  products is used, so the finiteness of the inputs is never opened.

  The frames: the kernel's two (word level and idealized) are the generated frame of its two-region run; the
  reference's is its generated run with the result dropped. The ideal pass rewrote nothing, so `preserves` is `True`.
-/
import proofs.«166744_j91302414778813_1_alg».proof.Defs
import proofs.«166744_j91302414778813_1_alg».proof.Proof.Gen.Kernel
import proofs.«166744_j91302414778813_1_alg».proof.Proof.Gen.Kernel.Skeleton
import proofs.«166744_j91302414778813_1_alg».proof.Proof.Gen.Kernel.Launch
import proofs.«166744_j91302414778813_1_alg».proof.Proof.Gen.Kernel.Points
import proofs.«166744_j91302414778813_1_alg».proof.Proof.Gen.Kernel.Frame
import proofs.«166744_j91302414778813_1_alg».proof.Proof.Gen.KernelIdeal
import proofs.«166744_j91302414778813_1_alg».proof.Proof.Gen.KernelIdeal.Skeleton
import proofs.«166744_j91302414778813_1_alg».proof.Proof.Gen.KernelIdeal.Launch
import proofs.«166744_j91302414778813_1_alg».proof.Proof.Gen.KernelIdeal.Points
import proofs.«166744_j91302414778813_1_alg».proof.Proof.Gen.KernelIdeal.Frame
import proofs.«166744_j91302414778813_1_alg».proof.Proof.Gen.ReferenceIdeal
import proofs.«166744_j91302414778813_1_alg».proof.Proof.Gen.ReferenceIdeal.Run
import proofs.«166744_j91302414778813_1_alg».proof.Proof.Gen.ReferenceIdeal.Read
import proofs.«166744_j91302414778813_1_alg».proof.Proof.Gen.Pre_finite_inputs
import proofs.«166744_j91302414778813_1_alg».proof.Proof.ValueRun
import proofs.«166744_j91302414778813_1_alg».proof.Proof.KernelValue
import proofs.«166744_j91302414778813_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at `Layers.network` of the argument arrays: the kernel's by the walk through
    its two regions, the reference's by its run's own term; the arguments agree. -/
theorem algebraic : Cert.algebraic_KernelIdeal_ReferenceIdeal := by
  intro m ρ m' ρ' _ hagree
  refine ⟨fun c => Cert.Layers.network (Cert.KernelIdeal.Result.inFeat m c) (Cert.KernelIdeal.Result.inEdges m c)
    (Cert.KernelIdeal.Result.inGraph m c) (Cert.KernelIdeal.Result.inW1 m c) (Cert.KernelIdeal.Result.inB1 m c)
    (Cert.KernelIdeal.Result.inW2 m c) (Cert.KernelIdeal.Result.inB2 m c), ?_, ?_⟩
  · exact (θ_run Cert.KernelIdeal.defs _ _).mono
      (fun r h c => ⟨(h c).1.trans (Cert.KernelIdeal.Result.result_eq m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Result.result_eq m' c).trans ?_
    obtain ⟨h0, h1, h2, h3, h4, h5, h6⟩ := hagree c
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
